-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x1024 : Shape := ⟨3, ![2, 32, 1024]⟩
abbrev S1024x4096 : Shape := ⟨2, ![1024, 4096]⟩
abbrev S_ : Shape := ⟨0, ![]⟩

class Facts : Prop where
  bcast_S_S2x32x1024 : S_.BroadcastsInDim S2x32x1024 (![] : Fin 0 → Fin S2x32x1024.rank)
  reducesTo_S2x32x1024_S_d0_1_2 : S2x32x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2x32x1024 .f32) (main_arg1 : FVec F S1024x4096 .f32) : IVec S_ 1 :=
  let main_v0 : FVec F S2x32x1024 .f32 := Host.absf main_arg0
  let main_cst : FVec F S_ .f32 := constant S_ .f32 0x7F800000#32
  let main_v1 : FVec F S2x32x1024 .f32 := broadcastInDim S2x32x1024 ![] bcast_S_S2x32x1024 main_cst
  let main_v2 : IVec S2x32x1024 1 := cmpf .olt main_v0 main_v1
  let main_c : IVec S_ 1 := constantI S_ 1 1#1
  let main_v3 : IVec S_ 1 := (fun x v => Host.reduce IntOp.andi x v reducesTo_S2x32x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S2x32x1024 : Shape := ⟨3, ![2, 32, 1024]⟩
abbrev S1024x4096 : Shape := ⟨2, ![1024, 4096]⟩
abbrev S64x1024 : Shape := ⟨2, ![64, 1024]⟩
abbrev S64x4096 : Shape := ⟨2, ![64, 4096]⟩
abbrev S1024x512 : Shape := ⟨2, ![1024, 512]⟩
abbrev S64x512 : Shape := ⟨2, ![64, 512]⟩
abbrev S64x128 : Shape := ⟨2, ![64, 128]⟩
abbrev S128x512 : Shape := ⟨2, ![128, 512]⟩
abbrev S64x128x1 : Shape := ⟨3, ![64, 128, 1]⟩
abbrev S1x128x512 : Shape := ⟨3, ![1, 128, 512]⟩
abbrev S64x128x512 : Shape := ⟨3, ![64, 128, 512]⟩
abbrev S2x32x4096 : Shape := ⟨3, ![2, 32, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2x32x1024, .f32⟩
  | .hbm, ⟨1, _⟩ => ⟨S1024x4096, .f32⟩
  | .hbm, ⟨2, _⟩ => ⟨S64x1024, .f32⟩
  | .hbm, ⟨3, _⟩ => ⟨S64x4096, .f32⟩
  | .hbm, ⟨4, _⟩ => ⟨S2x32x4096, .f32⟩
  | .local _ .vmem, ⟨0, _⟩ => ⟨S64x1024, .f32⟩
  | .local _ .vmem, ⟨1, _⟩ => ⟨S1024x512, .f32⟩
  | .local _ .vmem, ⟨2, _⟩ => ⟨S1024x512, .f32⟩
  | .local _ .vmem, ⟨3, _⟩ => ⟨S64x512, .f32⟩
  | .local _ .vmem, ⟨4, _⟩ => ⟨S64x512, .f32⟩
  | _, _ => ⟨S2x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  v4
def k0_off1 (k0_t1 : Fin k0_t1_loop.trips) : Fin 2 → Nat :=
  let c0_2 : Index := 0#32
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  let v5 : BitVec 32 := v4
  let v6 : Index := Scalar.indexCast v5
  ![0, v6.toNat]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  let v5 : BitVec 32 := v4
  let v9 : Index := Scalar.indexCast v5
  let c0_3 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x32x1024_S64x1024 : S2x32x1024.ShapeCasts S64x1024
  h_S64x128 : 0 < S64x128.numel
  shapeCasts_S64x128_S64x128 : S64x128.ShapeCasts S64x128
  h_S128x512 : 0 < S128x512.numel
  shapeCasts_S64x128_S64x128x1 : S64x128.ShapeCasts S64x128x1
  shapeCasts_S128x512_S1x128x512 : S128x512.ShapeCasts S1x128x512
  broadcasts_S64x128x1_S64x128x512 : S64x128x1.Broadcasts S64x128x512
  broadcasts_S1x128x512_S64x128x512 : S1x128x512.Broadcasts S64x128x512
  reduces_S64x128x512_S64x512 : S64x128x512.Reduces [1] S64x512
  inb_S64x512_S64x512_0_0 : ∀ a, (![0, 0] : Fin 2 → Nat) a + S64x512.size a ≤ S64x512.size a
  h_S64x512 : 0 < S64x512.numel
  shapeCasts_S64x4096_S2x32x4096 : S64x4096.ShapeCasts S2x32x4096
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x128.size a ≤ S64x1024.size a
  k0_off2_inb : ∀ k0_t1 : Fin k0_t1_loop.trips, ∀ a, (k0_off2 k0_t1) a + S128x512.size a ≤ S1024x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x4096.size a
  hwx0_2 : ∀ i : grid0.Coords, EltTy.bits .f32 = 32 ∨ (Rect.block (s := S64x4096) S64x512.size (cc0_transform_2 i) (hinb0_2 i)).WholeWords (EltTy.packing .f32)

variable [Facts₀]

abbrev win0_0 : Pipeline.Window sig grid0 :=
  Pipeline.Window.ofSpec (Memref.whole main_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32x1024 : Shape := ⟨3, ![2, 32, 1024]⟩
abbrev S1024x4096 : Shape := ⟨2, ![1024, 4096]⟩
abbrev S2x32x1024x1 : Shape := ⟨4, ![2, 32, 1024, 1]⟩
abbrev S1x1x1024x4096 : Shape := ⟨4, ![1, 1, 1024, 4096]⟩
abbrev S2x32x1024x4096 : Shape := ⟨4, ![2, 32, 1024, 4096]⟩
abbrev S_ : Shape := ⟨0, ![]⟩
abbrev S2x32x4096 : Shape := ⟨3, ![2, 32, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x32x1024, .f32⟩
  | .hbm, ⟨1, _⟩ => ⟨S1024x4096, .f32⟩
  | .hbm, ⟨2, _⟩ => ⟨S2x32x1024x1, .f32⟩
  | .hbm, ⟨3, _⟩ => ⟨S1x1x1024x4096, .f32⟩
  | .hbm, ⟨4, _⟩ => ⟨S2x32x1024x4096, .f32⟩
  | .hbm, ⟨5, _⟩ => ⟨S2x32x1024x4096, .f32⟩
  | .hbm, ⟨6, _⟩ => ⟨S2x32x1024x4096, .f32⟩
  | .hbm, ⟨7, _⟩ => ⟨S_, .f32⟩
  | .hbm, ⟨8, _⟩ => ⟨S2x32x4096, .f32⟩
  | _, _ => ⟨S2x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2x32x1024_S2x32x1024x1_0_1_2 : S2x32x1024.BroadcastsInDim S2x32x1024x1 (![0, 1, 2] : Fin 3 → Fin S2x32x1024x1.rank)
  bcast_S1024x4096_S1x1x1024x4096_2_3 : S1024x4096.BroadcastsInDim S1x1x1024x4096 (![2, 3] : Fin 2 → Fin S1x1x1024x4096.rank)
  bcast_S2x32x1024x1_S2x32x1024x4096_0_1_2_3 : S2x32x1024x1.BroadcastsInDim S2x32x1024x4096 (![0, 1, 2, 3] : Fin 4 → Fin S2x32x1024x4096.rank)
  bcast_S1x1x1024x4096_S2x32x1024x4096_0_1_2_3 : S1x1x1024x4096.BroadcastsInDim S2x32x1024x4096 (![0, 1, 2, 3] : Fin 4 → Fin S2x32x1024x4096.rank)
  reducesTo_S2x32x1024x4096_S2x32x4096_d2 : S2x32x1024x4096.ReducesTo [2] S2x32x4096
  h_S_ : 0 < S_.numel

variable [Facts₀]

class Facts : Prop extends Facts₀ where

variable [Facts]
-- ==== Proof.PoolSpec.lean ====
/-
  What both programs compute, as one function of the two argument arrays.  With `x` of shape [2, 32, 1024] and
  `w` of shape [1024, 4096], the result at `(b, f, m)` is the maximum over `n` of `x[b, f, n] * w[n, m]`, taken
  on the extended reals as a fold of `max` that starts from the value of the word `0xFF800000` (minus infinity).
  The kernel works on `x` flattened to 64 rows; `rowColMax` is the same maximum for a row of a rank-2 array
  against a column of another, which is what one grid point computes for its 512 columns.
-/
import Idealize.ShloMosaic.PureOps.Ideal
import Idealize.ShloMosaic.Lib.ValueIdx

noncomputable section

namespace Cert.Pool

open Idealize.ShloMosaic Idealize.ShloMosaic.ValueIdx

/-- The value every maximum starts from: the word both programs spell, read on the extended reals. -/
abbrev lowest : EReal := Ideal.ofBits .f32 0xFF800000#32

/-- The maximum over `n` of row `r` of `x` times column `q` of `w`. -/
def rowColMax {R N M : ℕ} (x : (⟨2, ![R, N]⟩ : Shape).Idx → EReal) (w : (⟨2, ![N, M]⟩ : Shape).Idx → EReal)
    (r : Fin R) (q : Fin M) : EReal :=
  (Finset.univ : Finset (Fin N)).fold max lowest (fun n => x (ix2 r n) * w (ix2 n q))

/-- The pooled array: at `(b, f, m)` the maximum over `n` of `x[b, f, n] * w[n, m]`. -/
def pooled (x : (⟨3, ![2, 32, 1024]⟩ : Shape).Idx → EReal) (w : (⟨2, ![1024, 4096]⟩ : Shape).Idx → EReal) :
    (⟨3, ![2, 32, 4096]⟩ : Shape).Idx → EReal :=
  fun j => (Finset.univ : Finset (Fin 1024)).fold max lowest (fun n => x (ix3 (j 0) (j 1) n) * w (ix2 n (j 2)))

end Cert.Pool

end
-- ==== Proof.RefMax.lean ====
/-
  The reference read at an index.  Its last operation reduces with `max` over axis 2 of the rank-4 product
  `x[b, f, n, ·] * w[·, ·, n, m]`; at a result index `(b, f, m)` that reduction is the fold of `max` over the
  1024 coordinates `n` of the dropped axis, and the two chains of broadcasts read `x` at `(b, f, n)` and `w`
  at `(n, m)`.  So the reference's result is the pooled array of the specification.
-/
import proofs.«145368_j16320875724845_1_alg».proof.Proof.Gen.ReferenceIdeal.Read
import proofs.«145368_j16320875724845_1_alg».proof.Proof.PoolSpec
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The reduced shape relation in the form that names the inserted coordinate. -/
theorem reduces_axis2 : S2x32x1024x4096.Reduces [2] S2x32x4096 := by decide

/-- The source index over `(b, f, m)` with coordinate `n` on the reduced axis, coordinate by coordinate. -/
theorem lift_val0 (j : S2x32x4096.Idx) (n : Fin (S2x32x1024x4096.size 2)) : ((reduces_axis2.lift j n) 0).val = (j 0).val := by
  rw [Shape.Reduces.lift_val]; simp [Shape.Reduces.liftVal]
theorem lift_val1 (j : S2x32x4096.Idx) (n : Fin (S2x32x1024x4096.size 2)) : ((reduces_axis2.lift j n) 1).val = (j 1).val := by
  rw [Shape.Reduces.lift_val]; simp [Shape.Reduces.liftVal]
theorem lift_val2 (j : S2x32x4096.Idx) (n : Fin (S2x32x1024x4096.size 2)) : ((reduces_axis2.lift j n) 2).val = n.val := by
  rw [Shape.Reduces.lift_val]; simp [Shape.Reduces.liftVal]
theorem lift_val3 (j : S2x32x4096.Idx) (n : Fin (S2x32x1024x4096.size 2)) : ((reduces_axis2.lift j n) 3).val = (j 2).val := by
  rw [Shape.Reduces.lift_val]; simp [Shape.Reduces.liftVal]

/-- The broadcast chain of `x` reads it at `(b, f, n)`. -/
theorem x_index (j : S2x32x4096.Idx) (n : Fin (S2x32x1024x4096.size 2)) :
    idx_main_v0 (idx_main_v2 (reduces_axis2.lift j n)) = ix3 (j 0) (j 1) n :=
  funext fun a => Fin.ext <| match a with
    | ⟨0, _⟩ => lift_val0 j n
    | ⟨1, _⟩ => lift_val1 j n
    | ⟨2, _⟩ => lift_val2 j n

/-- The broadcast chain of `w` reads it at `(n, m)`. -/
theorem w_index (j : S2x32x4096.Idx) (n : Fin (S2x32x1024x4096.size 2)) :
    idx_main_v1 (idx_main_v3 (reduces_axis2.lift j n)) = ix2 n (j 2) :=
  funext fun a => Fin.ext <| match a with
    | ⟨0, _⟩ => lift_val2 j n
    | ⟨1, _⟩ => lift_val3 j n

/-- The host's reduction with a `max` body over axis 2, at a result index: the fold of `max` from the initial value
    over the 1024 coordinates of that axis. -/
theorem hostMax_apply (y : FVec Ideal S2x32x1024x4096 .f32) (init : FVec Ideal S_ .f32)
    (h' : S2x32x1024x4096.ReducesTo [2] S2x32x4096) (h : S2x32x1024x4096.Reduces [2] S2x32x4096) (hu : 0 < S_.numel)
    (j : S2x32x4096.Idx) :
    Host.reduce FloatOps.maximumf y init h' hu j
      = (Finset.univ : Finset (Fin (S2x32x1024x4096.size 2))).fold max (init (Shape.Idx.first hu)) (y ∘ h.lift j) :=
  Host.reduce_eq_fold_single FloatOps.maximumf y init h' h hu j

/-- The reference's result is the pooled array. -/
theorem result_eq (x0 : FVec Ideal S2x32x1024 .f32) (x1 : FVec Ideal S1024x4096 .f32) :
    val_main_v5 (F := Ideal) x0 x1 = Cert.Pool.pooled x0 x1 := by
  funext j
  unfold val_main_v5
  refine (hostMax_apply (val_main_v4 (F := Ideal) x0 x1) (val_main_cst (F := Ideal)) _ reduces_axis2 _ j).trans ?_
  unfold Cert.Pool.pooled
  refine Finset.fold_congr (fun n _ => ?_)
  show val_main_v4 (F := Ideal) x0 x1 (reduces_axis2.lift j n) = _
  rw [val_main_v4_apply, val_main_v2_apply, val_main_v0_apply, val_main_v3_apply, val_main_v1_apply, x_index, w_index]
  rfl

end Cert.ReferenceIdeal.RefValue

end
-- ==== Proof.MaxChunks.lean ====
/-
  A maximum taken chunk by chunk.  Over a linear order, let `f` be a family indexed by `Fin N` with
  `N = L * C`, cut into `C` consecutive chunks of `L` entries.  A running value starts at `b`, and trip `i`
  replaces it by its maximum with the fold of `max` from `b` over chunk `i`.  After `C` trips the running
  value is the fold of `max` from `b` over the whole family: every entry lies in exactly one chunk, and
  `max` is associative, commutative and idempotent, so neither the grouping nor the repeated `b` matters.
-/
import Mathlib.Data.Finset.Fold
import Mathlib.Data.Fintype.Basic
import Mathlib.Order.Fin.Basic

namespace Cert.Pool

variable {α : Type*} [LinearOrder α]

/-- The chunked running maximum equals the maximum over the whole family.  `g i k` is entry `k` of chunk `i`,
    tied to `f` by `hg` at the position `L * i + k`. -/
theorem fold_max_chunks {C L N : ℕ} (hN : N = L * C) (f : Fin N → α) (g : ℕ → Fin L → α) (a : ℕ → α) (b : α)
    (h0 : a 0 = b)
    (hs : ∀ i, i < C → a (i + 1) = max (a i) ((Finset.univ : Finset (Fin L)).fold max b (g i)))
    (hg : ∀ i, i < C → ∀ (k : Fin L) (n : Fin N), n.val = L * i + k.val → g i k = f n) :
    a C = (Finset.univ : Finset (Fin N)).fold max b f := by
  apply le_antisymm
  · -- every running value is below the whole maximum
    have hle : ∀ i, i ≤ C → a i ≤ (Finset.univ : Finset (Fin N)).fold max b f := by
      intro i
      induction i with
      | zero => intro _; rw [h0]; exact (Finset.le_fold_max _).2 (Or.inl le_rfl)
      | succ i ih =>
        intro hi
        have hi' : i < C := hi
        rw [hs i hi']
        refine max_le (ih (Nat.le_of_lt hi')) ((Finset.fold_max_le _).2 ⟨(Finset.le_fold_max _).2 (Or.inl le_rfl), ?_⟩)
        intro k _
        have hlt : L * i + k.val < N := by
          have h1 : L * i + k.val < L * (i + 1) := by rw [Nat.mul_succ]; exact Nat.add_lt_add_left k.isLt _
          exact lt_of_lt_of_le h1 (hN ▸ Nat.mul_le_mul_left L hi)
        rw [hg i hi' k ⟨L * i + k.val, hlt⟩ rfl]
        exact (Finset.le_fold_max _).2 (Or.inr ⟨_, Finset.mem_univ _, le_rfl⟩)
    exact hle C le_rfl
  · -- the running value dominates `b` and every entry of the chunks already visited
    have hge : ∀ i, i ≤ C → b ≤ a i ∧ ∀ n : Fin N, n.val < L * i → f n ≤ a i := by
      intro i
      induction i with
      | zero => intro _; exact ⟨h0 ▸ le_rfl, fun n hn => absurd hn (by simp)⟩
      | succ i ih =>
        intro hi
        have hi' : i < C := hi
        obtain ⟨hb, hf⟩ := ih (Nat.le_of_lt hi')
        rw [hs i hi']
        refine ⟨le_trans hb (le_max_left _ _), fun n hn => ?_⟩
        by_cases hlt : n.val < L * i
        · exact le_trans (hf n hlt) (le_max_left _ _)
        · have hk : n.val - L * i < L := by rw [Nat.mul_succ] at hn; omega
          refine le_trans ?_ (le_max_right _ _)
          refine (Finset.le_fold_max _).2 (Or.inr ⟨⟨n.val - L * i, hk⟩, Finset.mem_univ _, ?_⟩)
          rw [hg i hi' ⟨n.val - L * i, hk⟩ n (by simp only; omega)]
    obtain ⟨hb, hf⟩ := hge C le_rfl
    exact (Finset.fold_max_le _).2 ⟨hb, fun n _ => hf n (hN ▸ n.isLt)⟩

end Cert.Pool
-- ==== Proof.TripMax.lean ====
/-
  One grid point of the kernel, read as a value.  The point holds all 64 rows of the flattened `x` (a 64 × 1024
  block) and 512 columns of `w` (a 1024 × 512 block).  Its loop makes 8 trips; trip `k` loads columns
  `128 k … 128 k + 127` of the `x` block and the same rows of the `w` block, forms the 64 × 128 × 512 array of
  products `x[r, l] * w[l, q]`, reduces it with `max` over the middle axis, and keeps the maximum of that and the
  running value, which starts at minus infinity.  At `(r, q)` the running value after the last trip is therefore
  the chunked maximum of `MaxChunks`, which is the maximum over all 1024 positions: `rowColMax` of the two blocks.
-/
import proofs.«145368_j16320875724845_1_alg».proof.Proof.Gen.KernelIdeal.Frame
import proofs.«145368_j16320875724845_1_alg».proof.Proof.PoolSpec
import proofs.«145368_j16320875724845_1_alg».proof.Proof.MaxChunks
import Idealize.ShloMosaic.PureOps.Ideal.Laws
import Idealize.ShloMosaic.Lib.Pipeline.Value
import Idealize.ShloMosaic.Lib.ValueLayout

set_option maxRecDepth 16384

noncomputable section

namespace Cert.KernelIdeal.PoolValue

open Cert.KernelIdeal Cert.KernelIdeal.Gen Cert.Pool
open Idealize.ShloMosaic Idealize.ShloMosaic.ValueIdx

/-! ## The product array of one trip, read at an index -/

/-- The source index of the middle-axis reduction over `(r, q)` with coordinate `l` inserted is `(r, l, q)`. -/
theorem lift_mid (h : S64x128x512.Reduces [1] S64x512) (r : Fin 64) (q : Fin 512) (l : Fin (S64x128x512.size 1)) :
    h.lift (ix2 r q) l = ix3 r l q :=
  funext fun a => Fin.ext <| match a with
    | ⟨0, _⟩ => by rw [Shape.Reduces.lift_val]; simp [Shape.Reduces.liftVal]
    | ⟨1, _⟩ => by rw [Shape.Reduces.lift_val]; simp [Shape.Reduces.liftVal]
    | ⟨2, _⟩ => by rw [Shape.Reduces.lift_val]; simp [Shape.Reduces.liftVal]

/-- The `x` chunk, given a trailing unit axis and broadcast along it, reads `x[r, l]` at `(r, l, q)`. -/
theorem xcol_apply (v : Vec Ideal S64x128 .f32) (h1 : S64x128.ShapeCasts S64x128) (h2 : S64x128.ShapeCasts S64x128x1)
    (h3 : S64x128x1.Broadcasts S64x128x512) (r : Fin 64) (l : Fin 128) (q : Fin 512) :
    broadcastTo S64x128x512 (shapeCast S64x128x1 (shapeCast S64x128 v h1) h2) h3 (ix3 r l q) = v (ix2 r l) := by
  refine (broadcastTo_apply _ h3 (ix3 r l q) (ix3 r l (0 : Fin 1)) (fun a => match a with
    | ⟨0, _⟩ => by show r.val = if (64 : ℕ) = 1 then 0 else r.val; rw [if_neg (by decide)]
    | ⟨1, _⟩ => by show l.val = if (128 : ℕ) = 1 then 0 else l.val; rw [if_neg (by decide)]
    | ⟨2, _⟩ => by show 0 = if (1 : ℕ) = 1 then 0 else q.val; rw [if_pos rfl])).trans ?_
  refine (shapeCast_apply _ h2 (ix3 r l (0 : Fin 1)) (ix2 r l) (by
    rw [Shape.rowMajor_val_two, Shape.rowMajor_val_three]
    show r.val * 128 + l.val = (r.val * 128 + l.val) * 1 + 0
    omega)).trans ?_
  rw [shapeCast_self]

/-- The `w` chunk, given a leading unit axis and broadcast along it, reads `w[l, q]` at `(r, l, q)`. -/
theorem wrow_apply (v : Vec Ideal S128x512 .f32) (h2 : S128x512.ShapeCasts S1x128x512)
    (h3 : S1x128x512.Broadcasts S64x128x512) (r : Fin 64) (l : Fin 128) (q : Fin 512) :
    broadcastTo S64x128x512 (shapeCast S1x128x512 v h2) h3 (ix3 r l q) = v (ix2 l q) := by
  refine (broadcastTo_apply _ h3 (ix3 r l q) (ix3 (0 : Fin 1) l q) (fun a => match a with
    | ⟨0, _⟩ => by show 0 = if (1 : ℕ) = 1 then 0 else r.val; rw [if_pos rfl]
    | ⟨1, _⟩ => by show l.val = if (128 : ℕ) = 1 then 0 else l.val; rw [if_neg (by decide)]
    | ⟨2, _⟩ => by show q.val = if (512 : ℕ) = 1 then 0 else q.val; rw [if_neg (by decide)])).trans ?_
  exact shapeCast_ab_1ab_apply v h2 0 l q

/-- The middle-axis `max` reduction of a 64 × 128 × 512 array from minus infinity, at `(r, q)`: the fold of `max` over the
    128 middle coordinates. -/
theorem chunkMax_apply (p : FVec Ideal S64x128x512 .f32) (h : S64x128x512.Reduces [1] S64x512) (hφ : FKind.Formats .f32)
    (hacc : (0xFF800000#32 : BitVec 32) = FKind.maximumf.neutral .f32 hφ) (r : Fin 64) (q : Fin 512) :
    multiReduction .maximumf [1] S64x512 p 0xFF800000#32 h hφ hacc (ix2 r q)
      = (Finset.univ : Finset (Fin 128)).fold max lowest (fun l => p (ix3 r l q)) := by
  refine (Ideal.multiReduction_maximumf_single p _ h hφ hacc (ix2 r q)).trans ?_
  refine Finset.fold_congr (fun l _ => ?_)
  exact congrArg p (lift_mid h r q l)

/-- What a trip yields at `(r, q)`: the running value against the maximum over the chunk's 128 positions. -/
theorem trip_apply (acc : FVec Ideal S64x512 .f32) (v7 : Vec Ideal S64x128 .f32) (v10 : Vec Ideal S128x512 .f32)
    (r : Fin 64) (q : Fin 512) :
    k0_pay2 (F := Ideal) acc v7 v10 (ix2 r q)
      = max (acc (ix2 r q)) ((Finset.univ : Finset (Fin 128)).fold max lowest (fun l => v7 (ix2 r l) * v10 (ix2 l q))) := by
  unfold k0_pay2
  dsimp only
  refine (maximumf_apply acc _ (ix2 r q)).trans ?_
  refine congrArg (max (acc (ix2 r q))) ?_
  refine (chunkMax_apply _ _ _ _ r q).trans ?_
  refine Finset.fold_congr (fun l _ => ?_)
  exact congrArg₂ (· * ·) (xcol_apply v7 _ _ _ r l q) (wrow_apply v10 _ _ r l q)

end Cert.KernelIdeal.PoolValue

end
-- ==== Proof.TripRun.lean ====
/-
  The loop of one grid point, trip by trip.  Trip `k` loads the 64 × 128 rectangle of the `x` block at column
  offset `128 k` and the 128 × 512 rectangle of the `w` block at row offset `128 k`; an entry `(r, l)` of the first
  is `x[r, 128 k + l]`, an entry `(l, q)` of the second is `w[128 k + l, q]`.  The value carried into trip `k + 1`
  is the trip's yield on the value carried into trip `k`, so at `(r, q)` the carried values form the chunked
  running maximum of the products `x[r, n] * w[n, q]`, and the value after the eighth trip, which is what the
  point stores, is the maximum over all `n`.
-/
import proofs.«145368_j16320875724845_1_alg».proof.Proof.TripMax

set_option maxRecDepth 16384

noncomputable section

namespace Cert.KernelIdeal.PoolValue

open Cert.KernelIdeal Cert.KernelIdeal.Gen Cert.Pool
open Idealize.ShloMosaic Idealize.ShloMosaic.ValueIdx

/-- The loop makes eight trips. -/
theorem trips_eq : k0_t1_loop.trips = 8 := by decide

/-- Trip `k`'s rectangle of the `x` block: entry `(r, l)` is `x[r, 128 k + l]`. -/
theorem xload_apply (x0 : Vec Ideal S64x1024 .f32) (k : Fin k0_t1_loop.trips)
    (inb : ∀ a, k0_off1 k a + S64x128.size a ≤ S64x1024.size a) (r : Fin 64) (l : Fin 128)
    (hn : 128 * k.val + l.val < 1024) :
    View.ld x0 (Rect.unit (s := S64x1024) (k0_off1 k) S64x128.size inb) (ix2 r l) = x0 (ix2 r ⟨128 * k.val + l.val, hn⟩) := by
  show x0 _ = x0 _
  refine congrArg x0 (funext fun a => Fin.ext ?_)
  match a with
  | ⟨0, _⟩ => show k0_off1 k 0 + 1 * r.val = r.val; rw [k0_off1_eq]; simp
  | ⟨1, _⟩ => show k0_off1 k 1 + 1 * l.val = 128 * k.val + l.val; rw [k0_off1_eq]; simp

/-- Trip `k`'s rectangle of the `w` block: entry `(l, q)` is `w[128 k + l, q]`. -/
theorem wload_apply (x1 : Vec Ideal S1024x512 .f32) (k : Fin k0_t1_loop.trips)
    (inb : ∀ a, k0_off2 k a + S128x512.size a ≤ S1024x512.size a) (l : Fin 128) (q : Fin 512)
    (hn : 128 * k.val + l.val < 1024) :
    View.ld x1 (Rect.unit (s := S1024x512) (k0_off2 k) S128x512.size inb) (ix2 l q) = x1 (ix2 ⟨128 * k.val + l.val, hn⟩ q) := by
  show x1 _ = x1 _
  refine congrArg x1 (funext fun a => Fin.ext ?_)
  match a with
  | ⟨0, _⟩ => show k0_off2 k 0 + 1 * l.val = 128 * k.val + l.val; rw [k0_off2_eq]; simp
  | ⟨1, _⟩ => show k0_off2 k 1 + 1 * q.val = q.val; rw [k0_off2_eq]; simp

variable (c : Dev nD) (i : grid0.Coords)
  (arg1 : Memref sig .tc .vmem S64x1024 .f32) (harg1 : arg1.IsWhole)
  (arg2 : Memref sig .tc .vmem S1024x512 .f32) (harg2 : arg2.IsWhole)
  (arg3 : Memref sig .tc .vmem S64x512 .f32) (harg3 : arg3.IsWhole)
  (x0 : Vec Ideal S64x1024 .f32) (x1 : Vec Ideal S1024x512 .f32)

/-- What trip `k` yields from a carried value: the trip's arithmetic on its two loaded rectangles. -/
theorem trip_yield (k : Fin k0_t1_loop.trips) (acc : FVec Ideal S64x512 .f32) :
    tripR_k0_t1 (F := Ideal) Variants.none c none i arg1 harg1 arg2 harg2 arg3 harg3 (harg1.unread x0) (harg2.unread x1) k acc
      = k0_pay2 (F := Ideal) acc (View.ld x0 (Rect.unit (s := S64x1024) (k0_off1 k) S64x128.size (k0_off1_inb k)))
          (View.ld x1 (Rect.unit (s := S1024x512) (k0_off2 k) S128x512.size (k0_off2_inb k))) := by
  unfold tripR_k0_t1 trip_k0_t1
  dsimp only
  rw [View.readAt_eq_ld, View.readAt_eq_ld, harg1.read_unread, harg2.read_unread]

/-- The value carried into trip `n`. -/
abbrev carried (n : ℕ) : FVec Ideal S64x512 .f32 :=
  st_k0_t1 (F := Ideal) Variants.none c none i arg1 harg1 arg2 harg2 arg3 harg3 (harg1.unread x0) (harg2.unread x1)
    (k0_pay1 (F := Ideal)) n

/-- After the last trip the carried value at `(r, q)` is the maximum over all 1024 positions. -/
theorem carried_final (r : Fin 64) (q : Fin 512) :
    carried c i arg1 harg1 arg2 harg2 arg3 harg3 x0 x1 k0_t1_loop.trips (ix2 r q) = rowColMax x0 x1 r q := by
  rw [trips_eq]
  unfold rowColMax
  refine fold_max_chunks (C := 8) (L := 128) (N := 1024) rfl (fun n => x0 (ix2 r n) * x1 (ix2 n q))
    (fun t l => if h : 128 * t + l.val < 1024 then x0 (ix2 r ⟨128 * t + l.val, h⟩) * x1 (ix2 ⟨128 * t + l.val, h⟩ q) else lowest)
    (fun n => carried c i arg1 harg1 arg2 harg2 arg3 harg3 x0 x1 n (ix2 r q)) lowest rfl ?_ ?_
  · intro t ht
    have hk : t < k0_t1_loop.trips := by rw [trips_eq]; exact ht
    show st_k0_t1 (F := Ideal) Variants.none c none i arg1 harg1 arg2 harg2 arg3 harg3 (harg1.unread x0) (harg2.unread x1)
        (k0_pay1 (F := Ideal)) ((⟨t, hk⟩ : Fin k0_t1_loop.trips).val + 1) (ix2 r q) = _
    rw [st_k0_t1_succ, trip_yield, trip_apply]
    refine congrArg (max _) (Finset.fold_congr (fun l _ => ?_))
    have hn : 128 * t + l.val < 1024 := by have := l.isLt; omega
    rw [xload_apply x0 ⟨t, hk⟩ _ r l hn, wload_apply x1 ⟨t, hk⟩ _ l q hn, dif_pos hn]
  · intro t ht l n hn
    have h : 128 * t + l.val < 1024 := by have := n.isLt; omega
    have e : n = ⟨128 * t + l.val, h⟩ := Fin.ext hn
    rw [dif_pos h, e]

theorem zero_offsets : (![0, 0] : Fin 2 → Nat) = fun _ => 0 := funext fun a => by fin_cases a <;> rfl

/-- What the point's one store leaves in its output block, entry by entry: the body stores the value carried out of
    the loop through the whole-block rectangle. -/
theorem block_value (r : Fin 64) (q : Fin 512) :
    out0_A_2 (F := Ideal) c i arg1 harg1 arg2 harg2 arg3 harg3 x0 x1 (ix2 r q) = rowColMax x0 x1 r q := by
  unfold out0_A_2
  rw [View.read_writes_eq_canon _ _ _ (cover0_A_2 c i arg1 harg1 arg2 harg2 arg3 harg3 x0 x1)]
  unfold kernelRun0_A
  dsimp only
  rw [View.canon_unit_zero (S := S64x512) zero_offsets]
  exact carried_final c i arg1 harg1 arg2 harg2 arg3 harg3 x0 x1 r q

end Cert.KernelIdeal.PoolValue

end
-- ==== Proof.PointBlocks.lean ====
/-
  From the grid points to the kernel's result array.  The grid has 8 points; point `t` sees the whole flattened
  `x` (its window's block index is (0, 0) at every point) and columns `512 t … 512 t + 511` of `w`, and writes
  back columns `512 t … 512 t + 511` of the 64 × 4096 result.  What it writes at `(r, q)` is the maximum over `n`
  of `x[r, n] * w[n, 512 t + q]`, which is entry `(r, 512 t + q)` of one whole-array function `rowsMax`; the
  eight column blocks tile the result, so after the run the result array is `rowsMax`.
-/
import proofs.«145368_j16320875724845_1_alg».proof.Proof.TripRun

set_option maxRecDepth 16384

noncomputable section

namespace Cert.KernelIdeal.PoolValue

open Cert.KernelIdeal Cert.KernelIdeal.Gen Cert.Pool
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The two input blocks of a point and the two arrays they are blocks of, at their literal shapes. -/
abbrev xblk (c : Dev nD) (t : Fin cfg0.N) : Vec Ideal S64x1024 .f32 := iblk m c 0 t
abbrev wblk (c : Dev nD) (t : Fin cfg0.N) : Vec Ideal S1024x512 .f32 := iblk m c 1 t
abbrev xarr (c : Dev nD) : Vec Ideal S64x1024 .f32 := V m c main_v0
abbrev warr (c : Dev nD) : Vec Ideal S1024x4096 .f32 := V m c main_arg1

/-- The whole result: row `r` of the flattened `x` against column `k` of `w`. -/
def rowsMax (c : Dev nD) : Vec Ideal S64x4096 .f32 := fun i => rowColMax (xarr m c) (warr m c) (i 0) (i 1)

/-- The block indices over the grid: `x` stays at block (0, 0); `w` and the result move together along the
    columns, through at most 8 blocks. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 7 :=
  (by decide +kernel : ∀ t : Fin grid0.N, _)

/-- Every column block of the result is some point's. -/
theorem idx_onto : ∀ q : Fin 8, ∃ t : Fin cfg0.N, win0_2.index t = ![0, q.val] :=
  (by decide +kernel : ∀ q : Fin 8, ∃ t : Fin grid0.N, win0_2.index t = ![0, q.val])

/-- The `x` block of a point is the whole flattened `x`. -/
theorem xblk_apply (c : Dev nD) (t : Fin cfg0.N) (r : Fin 64) (n : Fin 1024) (k : Fin 64) (hk : k.val = r.val) :
    xblk m c t (ix2 r n) = xarr m c (ix2 k n) := by
  obtain ⟨e0, e1, -⟩ := idx_facts t
  show xarr m c (((cfg0.win 0).blk t).view.emb (ix2 r n)) = xarr m c (ix2 k n)
  refine congrArg (xarr m c) (funext fun a => Fin.ext ?_)
  match a with
  | ⟨0, _⟩ => show win0_0.index t (0 : Fin 2) * 64 + 1 * r.val = k.val; omega
  | ⟨1, _⟩ => show win0_0.index t (1 : Fin 2) * 1024 + 1 * n.val = n.val; omega

/-- The `w` block of a point is the 512 columns of `w` from the result block's column offset. -/
theorem wblk_apply (c : Dev nD) (t : Fin cfg0.N) (n : Fin 1024) (q : Fin 512) (k : Fin 4096)
    (hk : k.val = win0_2.index t (1 : Fin 2) * 512 + 1 * q.val) :
    wblk m c t (ix2 n q) = warr m c (ix2 n k) := by
  obtain ⟨-, -, e2, e3, -⟩ := idx_facts t
  show warr m c (((cfg0.win 1).blk t).view.emb (ix2 n q)) = warr m c (ix2 n k)
  refine congrArg (warr m c) (funext fun a => Fin.ext ?_)
  match a with
  | ⟨0, _⟩ => show win0_1.index t (0 : Fin 2) * 1024 + 1 * n.val = n.val; omega
  | ⟨1, _⟩ => show win0_1.index t (1 : Fin 2) * 512 + 1 * q.val = k.val; omega

/-- What point `t` leaves in its output block, entry by entry. -/
theorem point_value (c : Dev nD) (t : Fin cfg0.N) (y : S64x512.Idx) :
    outsAt0 m c t y = rowColMax (xblk m c t) (wblk m c t) (y 0) (y 1) := by
  have h := block_value c (grid0.coords t) (ms0_0 t) (hs0_0 t) (ms0_1 t) (hs0_1 t) (ms0_2 t) (hs0_2 t)
    (xblk m c t) (wblk m c t) (y 0) (y 1)
  exact (congrArg (outsAt0 m c t) (eq_ix2 y)).trans h

/-- What point `t` writes back is block `t` of `rowsMax`. -/
theorem flushed_eq (c : Dev nD) (t : Fin cfg0.N) :
    (dats m 0 c).flushed 2 t = ((cfg0.win 2).blk t).view.read (Elt Ideal) (rowsMax m c) := by
  show (cfg0.win 2).cut (grid0.coords t) ((dats m 0 c).after 2 t) = _
  rw [after0_2]
  obtain ⟨-, -, -, -, e4, -⟩ := idx_facts t
  funext y
  show outsAt0 m c t y = rowsMax m c (((cfg0.win 2).blk t).view.emb y)
  refine (point_value m c t y).trans ?_
  unfold rowsMax rowColMax
  refine Finset.fold_congr (fun n _ => ?_)
  refine congrArg₂ (· * ·) (xblk_apply m c t (y 0) n _ ?_) (wblk_apply m c t n (y 1) _ ?_)
  · show win0_2.index t (0 : Fin 2) * 64 + 1 * (y 0).val = (y 0).val; omega
  · show win0_2.index t (1 : Fin 2) * 512 + 1 * (y 1).val = win0_2.index t (1 : Fin 2) * 512 + 1 * (y 1).val; rfl

/-- An index of the result is in point `t`'s block iff each coordinate is in the block's range on its axis. -/
theorem mem_blk (t : Fin cfg0.N) (i : S64x4096.Idx) :
    i ∈ ((cfg0.win 2).blk t).view.set ↔ ∀ a : Fin 2, win0_2.index t a * S64x512.size a ≤ (i a).val ∧ (i a).val < win0_2.index t a * S64x512.size a + S64x512.size a := by
  show i ∈ ((View.whole main_v1).slice (win0_2.rect t)).set ↔ _
  rw [View.set_slice_whole, Rect.mem_set_unit]
  exact Iff.rfl

/-- The eight column blocks cover the result: column `j` is in block `j / 512`. -/
theorem cover (i : S64x4096.Idx) : ∃ t : Fin cfg0.N, (cfg0.win 2).flush t = true ∧ i ∈ ((cfg0.win 2).blk t).view.set := by
  have hi0 : (i 0).val < 64 := (i 0).isLt
  have hi1 : (i 1).val < 4096 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 512 ≤ (i 1).val ∧ (i 1).val < win0_2.index t (1 : Fin 2) * 512 + 512; omega

/-- The result array after the run. -/
theorem final (c : Dev nD) : (dats m 0 c).arrAt 2 cfg0.N = rowsMax m c :=
  (dats m 0 c).arrAt_eq_of_cover 2 (rowsMax m c) (fun t _ => flushed_eq m c t) cover

end Cert.KernelIdeal.PoolValue

end
-- ==== Proof.HostEnds.lean ====
/-
  The host operations around the kernel.  Before it, `x` of shape [2, 32, 1024] is flattened to 64 rows: row
  `32 b + f` of the flat array is `x[b, f, ·]`.  After it, the 64 × 4096 result is cut back into [2, 32, 4096]:
  entry `(b, f, m)` is entry `(32 b + f, m)` of the flat result.  Both are reshapes, so they keep the row-major
  position; read through them, the kernel's result at `(b, f, m)` is the maximum over `n` of
  `x[b, f, n] * w[n, m]`: the pooled array of the specification.
-/
import proofs.«145368_j16320875724845_1_alg».proof.Proof.PointBlocks
import Idealize.ShloMosaic.Lib.StableHlo.Run

set_option maxRecDepth 16384

noncomputable section

namespace Cert.KernelIdeal.PoolValue

open Cert.KernelIdeal Cert.KernelIdeal.Gen Cert.Pool
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The array the kernel's first window stages is the flattened `x`. -/
theorem xarr_eq (c : Dev nD) :
    xarr m c = shapeCast S64x1024 (m ((c : Thread nD τ).loc main_arg0)) shapeCasts_S2x32x1024_S64x1024 := by
  show StableHlo.after hostOps0 (fun b => m (c, b)) (Proc.devRef .tc main_v0) = _
  after_results
  rfl

/-- The array its second window stages is `w` as launched. -/
theorem warr_eq (c : Dev nD) : warr m c = m ((c : Thread nD τ).loc main_arg1) := V_main_arg1 m c

/-- The program's result is the kernel's result array cut back into three axes. -/
theorem tail_value (c : Dev nD) :
    Pipeline.afterTail₀ cfgs (dats m) 0 (V0 m) [hostOps1] c main_v2
      = shapeCast S2x32x4096 (rowsMax m c) shapeCasts_S64x4096_S2x32x4096 := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v1)
      = rowsMax m c :=
    (Pipeline.withArrays_arr spec0 launch0.win.arr_inj c _ _ 2).trans (final m c)
  funext j
  show shapeCast S2x32x4096 (Pipeline.withArrays spec0 c (V0 m c) (fun w => (dats m 0 c).arrAt w cfg0.N)
    (Proc.devRef .tc main_v1)) shapeCasts_S64x4096_S2x32x4096 j = _
  rw [e]

/-- The flattened `x` at row `32 b + f` is `x[b, f, ·]`. -/
theorem xarr_apply (c : Dev nD) (b : Fin 2) (f : Fin 32) (n : Fin 1024) (r : Fin 64) (hr : r.val = b.val * 32 + f.val) :
    xarr m c (ix2 r n) = m ((c : Thread nD τ).loc main_arg0) (ix3 b f n) := by
  refine (congrFun (xarr_eq m c) (ix2 r n)).trans ?_
  refine shapeCast_apply _ _ (ix2 r n) (ix3 b f n) ?_
  rw [Shape.rowMajor_val_three, Shape.rowMajor_val_two]
  show (b.val * 32 + f.val) * 1024 + n.val = r.val * 1024 + n.val
  rw [hr]

/-- Cut back into three axes, the kernel's result is the pooled array of the arguments. -/
theorem kernel_value (c : Dev nD) :
    shapeCast S2x32x4096 (rowsMax m c) shapeCasts_S64x4096_S2x32x4096
      = pooled (m ((c : Thread nD τ).loc main_arg0)) (m ((c : Thread nD τ).loc main_arg1)) := by
  funext j
  have h0 : (j 0).val < 2 := (j 0).isLt
  have h1 : (j 1).val < 32 := (j 1).isLt
  refine (shapeCast_apply (rowsMax m c) shapeCasts_S64x4096_S2x32x4096 j
    (ix2 (⟨(j 0).val * 32 + (j 1).val, by omega⟩ : Fin 64) (j 2)) ?_).trans ?_
  · rw [Shape.rowMajor_val_three, Shape.rowMajor_val_two]
    show ((j 0).val * 32 + (j 1).val) * 4096 + (j 2).val = ((j 0).val * 32 + (j 1).val) * 4096 + (j 2).val
    rfl
  · unfold rowsMax pooled rowColMax
    refine Finset.fold_congr (fun n _ => ?_)
    exact congrArg₂ (· * ·) (xarr_apply m c (j 0) (j 1) n _ rfl) (congrFun (warr_eq m c) (ix2 n (j 2)))

/-- The kernel's run, read: the program's result is the pooled array, and the arguments are unchanged. -/
theorem run : θ_run defs (onTc (τ := τ) (main (F := Ideal))) ⟨m, fun _ => 0, ρ⟩ fun r => ∀ c : Dev nD,
      r.2.mem ((c.tc : Thread nD τ).loc main_v2)
        = pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((tail_value m c).trans (kernel_value m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.PoolValue

end
-- ==== Proof.lean ====
/-
  Max-pooling along an incidence matrix: `y[b, f, m] = max over n of x[b, f, n] * w[n, m]`, with `x` of shape
  [2, 32, 1024] and `w` of shape [1024, 4096].

  The reference forms the rank-4 array of products and reduces it with `max` over `n`, starting from minus
  infinity.  The kernel flattens `x` to 64 rows, walks the 4096 columns in 8 blocks of 512, and inside a block
  walks `n` in 8 chunks of 128: each chunk's products are reduced with `max` from minus infinity, and the result is
  folded with `max` into a running value that also starts at minus infinity.  On the extended reals `max` is
  associative, commutative and idempotent, so the chunked running maximum is the maximum over all `n`
  (`MaxChunks`), whatever the values of the products; no property of the inputs is used.  The column blocks tile
  the result (`PointBlocks`) and the two reshapes keep row-major positions (`HostEnds`), so both programs end at
  the same array `Cert.Pool.pooled x w` (`PoolSpec`, `RefMax`).  Nothing was rewritten by the idealization, so
  that conjunct is trivial; the three runs without fault are the generated frame runs and the reference's run.
-/
import proofs.«145368_j16320875724845_1_alg».proof.Defs
import proofs.«145368_j16320875724845_1_alg».proof.Proof.Gen.Kernel
import proofs.«145368_j16320875724845_1_alg».proof.Proof.Gen.Kernel.Skeleton
import proofs.«145368_j16320875724845_1_alg».proof.Proof.Gen.Kernel.Loops
import proofs.«145368_j16320875724845_1_alg».proof.Proof.Gen.Kernel.Launch
import proofs.«145368_j16320875724845_1_alg».proof.Proof.Gen.Kernel.Points
import proofs.«145368_j16320875724845_1_alg».proof.Proof.Gen.Kernel.Frame
import proofs.«145368_j16320875724845_1_alg».proof.Proof.Gen.KernelIdeal
import proofs.«145368_j16320875724845_1_alg».proof.Proof.Gen.KernelIdeal.Skeleton
import proofs.«145368_j16320875724845_1_alg».proof.Proof.Gen.KernelIdeal.Loops
import proofs.«145368_j16320875724845_1_alg».proof.Proof.Gen.KernelIdeal.Launch
import proofs.«145368_j16320875724845_1_alg».proof.Proof.Gen.KernelIdeal.Points
import proofs.«145368_j16320875724845_1_alg».proof.Proof.Gen.KernelIdeal.Frame
import proofs.«145368_j16320875724845_1_alg».proof.Proof.Gen.ReferenceIdeal
import proofs.«145368_j16320875724845_1_alg».proof.Proof.Gen.ReferenceIdeal.Run
import proofs.«145368_j16320875724845_1_alg».proof.Proof.Gen.ReferenceIdeal.Read
import proofs.«145368_j16320875724845_1_alg».proof.Proof.Gen.Pre_finite_inputs
import proofs.«145368_j16320875724845_1_alg».proof.Proof.RefMax
import proofs.«145368_j16320875724845_1_alg».proof.Proof.HostEnds
import Idealize.ShloMosaic.Adequacy
import Idealize.ShloMosaic.Init

noncomputable section

namespace Cert.Proof

open Idealize.ShloMosaic Idealize.ShloMosaic.TcCoe Idealize.SL.Sem

/-- The word-level kernel runs without fault and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the pooled array of their (agreeing) arguments. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
